-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S64x128 : Shape := ⟨2, ![64, 128]⟩
abbrev S64 : Shape := ⟨1, ![64]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S8192x128 .f32) (main_arg1 : FVec F S8192x8192 .f32) (main_arg2 : FVec F S64x128 .f32) (main_arg3 : FVec F S64 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S8192x128 : Shape := ⟨2, ![8192, 128]⟩
abbrev S8192x8192 : Shape := ⟨2, ![8192, 8192]⟩
abbrev S64x128 : Shape := ⟨2, ![64, 128]⟩
abbrev S64 : Shape := ⟨1, ![64]⟩
abbrev S1x64 : Shape := ⟨2, ![1, 64]⟩
abbrev S8192x64 : Shape := ⟨2, ![8192, 64]⟩
abbrev S512x4096 : Shape := ⟨2, ![512, 4096]⟩
abbrev S512x64 : Shape := ⟨2, ![512, 64]⟩
abbrev S4096x64 : Shape := ⟨2, ![4096, 64]⟩

abbrev nBuf : Space → Nat
  | .hbm => 6
  | .vmem => 9
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S64x128, .f32⟩
  | .hbm, ⟨3, _⟩ => ⟨S64, .f32⟩
  | .hbm, ⟨4, _⟩ => ⟨S1x64, .f32⟩
  | .hbm, ⟨5, _⟩ => ⟨S8192x64, .f32⟩
  | .local _ .vmem, ⟨0, _⟩ => ⟨S8192x128, .f32⟩
  | .local _ .vmem, ⟨1, _⟩ => ⟨S64x128, .f32⟩
  | .local _ .vmem, ⟨2, _⟩ => ⟨S1x64, .f32⟩
  | .local _ .vmem, ⟨3, _⟩ => ⟨S512x4096, .f32⟩
  | .local _ .vmem, ⟨4, _⟩ => ⟨S512x4096, .f32⟩
  | .local _ .vmem, ⟨5, _⟩ => ⟨S512x64, .f32⟩
  | .local _ .vmem, ⟨6, _⟩ => ⟨S512x64, .f32⟩
  | .local _ .vmem, ⟨7, _⟩ => ⟨S8192x64, .f32⟩
  | .local _ .vmem, ⟨8, _⟩ => ⟨S512x64, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 2], ![false, false]⟩

def k0_off1 (i : grid0.Coords) : Fin 2 → Nat :=
  let arg1 : BitVec 32 := BitVec.ofNat 32 (i 1).val
  let c4096_i32 : BitVec 32 := 4096#32
  let v6 : BitVec 32 := Scalar.muli arg1 c4096_i32
  let v7 : Index := Scalar.indexCast v6
  let c0_3 : Index := 0#32
  ![v7.toNat, 0]
def k0_cond3 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S64_S1x64 : S64.ShapeCasts S1x64
  inb_S8192x128_S8192x128_0_0 : ∀ a, (![0, 0] : Fin 2 → Nat) a + S8192x128.size a ≤ S8192x128.size a
  h_S8192x128 : 0 < S8192x128.numel
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S512x4096_S512x4096_0_0 : ∀ a, (![0, 0] : Fin 2 → Nat) a + S512x4096.size a ≤ S512x4096.size a
  h_S512x4096 : 0 < S512x4096.numel
  h_S4096x64 : 0 < S4096x64.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  dot_S8192x128_S64x128_S8192x64_1_1_0_0_n_n_wf : DotDims.WF S8192x128 S64x128 S8192x64 [1] [1] [0] [0] [] []
  dot_S512x4096_S4096x64_S512x64_1_0_0_1_n_n_wf : DotDims.WF S512x4096 S4096x64 S512x64 [1] [0] [0] [1] [] []
  hrank0 : 0 < grid0.rank
  k0_off1_inb : ∀ i : grid0.Coords, ∀ a, (k0_off1 i) a + S4096x64.size a ≤ S8192x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x8192.size a
  hwx0_3 : ∀ i : grid0.Coords, EltTy.bits .f32 = 32 ∨ (Rect.block (s := S8192x8192) S512x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S8192x64.size a
  hwx0_4 : ∀ i : grid0.Coords, EltTy.bits .f32 = 32 ∨ (Rect.block (s := S8192x64) S512x64.size (cc0_transform_4 i) (hinb0_4 i)).WholeWords (EltTy.packing .f32)

variable [Facts₀]

def dot_S8192x128_S64x128_S8192x64_1_1_0_0_n_n : DotDims S8192x128 S64x128 S8192x64 where
  lhsContracting := [1]
  rhsContracting := [1]
  lhsNonContracting := [0]
  rhsNonContracting := [0]
  lhsBatch := []
  rhsBatch := []
  wf := dot_S8192x128_S64x128_S8192x64_1_1_0_0_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S64x128 : Shape := ⟨2, ![64, 128]⟩
abbrev S64 : Shape := ⟨1, ![64]⟩
abbrev S128x64 : Shape := ⟨2, ![128, 64]⟩
abbrev S8192x64 : Shape := ⟨2, ![8192, 64]⟩
abbrev S1x64 : Shape := ⟨2, ![1, 64]⟩

abbrev nBuf : Space → Nat
  | .hbm => 10
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S64x128, .f32⟩
  | .hbm, ⟨3, _⟩ => ⟨S64, .f32⟩
  | .hbm, ⟨4, _⟩ => ⟨S128x64, .f32⟩
  | .hbm, ⟨5, _⟩ => ⟨S8192x64, .f32⟩
  | .hbm, ⟨6, _⟩ => ⟨S1x64, .f32⟩
  | .hbm, ⟨7, _⟩ => ⟨S8192x64, .f32⟩
  | .hbm, ⟨8, _⟩ => ⟨S8192x64, .f32⟩
  | .hbm, ⟨9, _⟩ => ⟨S8192x64, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x128_S128x64_S8192x64_1_0_0_1_n_n_wf : DotDims.WF S8192x128 S128x64 S8192x64 [1] [0] [0] [1] [] []
  dot_S8192x8192_S8192x64_S8192x64_1_0_0_1_n_n_wf : DotDims.WF S8192x8192 S8192x64 S8192x64 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.GraphConvSpec.lean ====
/-
  The dense graph-convolution layer as ONE function of its four arrays, over the extended reals.

  With x : [8192, 128] the node features, W : [64, 128] the weights, b the 64 biases and adj : [8192, 8192]
  the (dense) adjacency,
      dense j c = (∑ k < 128, x[j, k] · W[c, k]) + b[c]          -- the affine layer, row j, output feature c
      conv  r c = ∑ j < 8192, adj[r, j] · dense j c               -- the aggregation over all nodes
  The only law used anywhere below is that a sum over the 8192 nodes is the sum over the first 4096 plus the sum
  over the last 4096: addition of extended reals is commutative and associative (a commutative monoid, the
  infinities included), so no finiteness of the entries is needed.
-/
import Idealize.ShloMosaic.PureOps.Ideal
import Idealize.ShloMosaic.Lib.ValueIdx

noncomputable section

open scoped BigOperators
open Idealize.ShloMosaic Idealize.ShloMosaic.ValueIdx

namespace Cert.GraphConv

/-- Node `q` of the first half of the nodes, as a node. -/
abbrev lo (q : Fin 4096) : Fin 8192 := ⟨q.val, by have := q.isLt; omega⟩
/-- Node `q` of the second half of the nodes, as a node. -/
abbrev hi (q : Fin 4096) : Fin 8192 := ⟨4096 + q.val, by have := q.isLt; omega⟩

/-- A sum over the 8192 nodes is the sum over the first half plus the sum over the second half, in any commutative
    monoid. -/
theorem sum_nodes_halves {M : Type*} [AddCommMonoid M] (f : Fin 8192 → M) :
    ∑ j : Fin 8192, f j = (∑ q : Fin 4096, f (lo q)) + ∑ q : Fin 4096, f (hi q) :=
  Fin.sum_univ_add (a := 4096) (b := 4096) (f : Fin (4096 + 4096) → M)

/-- The affine layer at node `j`, output feature `c`: row `j` of `x` against row `c` of `W` over the 128 input
    features, plus the bias of feature `c`. -/
def dense (x : (⟨2, ![8192, 128]⟩ : Shape).Idx → EReal) (w : (⟨2, ![64, 128]⟩ : Shape).Idx → EReal)
    (b : Fin 64 → EReal) (j : Fin 8192) (c : Fin 64) : EReal :=
  (∑ k : Fin 128, x (ix2 j k) * w (ix2 c k)) + b c

/-- The layer's output: row `r` of the adjacency against column `c` of the affine layer, over all nodes. -/
def conv (x : (⟨2, ![8192, 128]⟩ : Shape).Idx → EReal) (adj : (⟨2, ![8192, 8192]⟩ : Shape).Idx → EReal)
    (w : (⟨2, ![64, 128]⟩ : Shape).Idx → EReal) (b : Fin 64 → EReal) :
    (⟨2, ![8192, 64]⟩ : Shape).Idx → EReal :=
  fun i => ∑ j : Fin 8192, adj (ix2 (i 0) j) * dense x w b j (i 1)

/-- The output entry as the two half-contractions the blocked computation forms, first half first. -/
theorem conv_halves (x : (⟨2, ![8192, 128]⟩ : Shape).Idx → EReal) (adj : (⟨2, ![8192, 8192]⟩ : Shape).Idx → EReal)
    (w : (⟨2, ![64, 128]⟩ : Shape).Idx → EReal) (b : Fin 64 → EReal) (r : Fin 8192) (c : Fin 64) :
    conv x adj w b (ix2 r c)
      = (∑ q : Fin 4096, adj (ix2 r (lo q)) * dense x w b (lo q) c)
        + ∑ q : Fin 4096, adj (ix2 r (hi q)) * dense x w b (hi q) c :=
  sum_nodes_halves fun j => adj (ix2 r j) * dense x w b j c

end Cert.GraphConv

end
-- ==== Proof.KernelPieces.lean ====
/-
  What one grid point's body leaves behind, case by case, as values (for any float instance).

  The grid is 16 row panels × 2 halves of the node axis, walked panel by panel, first half then second half.
  The body keeps two buffers between points: `support` ([8192, 64], the affine layer of every node) and `acc`
  ([512, 64], the first half-contraction of the current row panel). With `slab` the 4096 rows of `support` the point's
  half selects and `part = adjblock · slab`:
    * the very first point (panel 0, first half) first fills `support` with the affine layer of the whole inputs and
      then stores `part`, formed from the slab of what it has just stored, into `acc`;
    * every other first-half point stores `part` into `acc`, reading the `support` it was handed;
    * every second-half point stores `acc + part` into the output block and leaves both buffers as they were.
  Each statement below says that the one covering store of the case holds exactly that payload of the point's
  input blocks: the loads read whole buffers, except the slab, which is read through its 4096-row rectangle.
-/
import proofs.«132594_g55353538511427_cont_9to1c4b_890_15_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The 4096 rows of a [8192, 64] buffer that the point's half selects (rows `4096·half …`), as a [4096, 64] vector. -/
abbrev slab (i : grid0.Coords) (s : Vec F S8192x64 .f32) : Vec F S4096x64 .f32 :=
  View.ld s (Rect.unit (s := S8192x64) (k0_off1 i) S4096x64.size (k0_off1_inb i))

/-- First point: `support` ends holding the affine layer of the three whole input blocks. -/
theorem support_first (c : Dev nD) (i : grid0.Coords) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S512x4096 .f32) (harg5 : arg5.IsWhole) (arg6 : Memref sig .tc .vmem S512x64 .f32) (harg6 : arg6.IsWhole) (arg7 : Memref sig .tc .vmem S8192x64 .f32) (harg7 : arg7.IsWhole) (arg8 : Memref sig .tc .vmem S512x64 .f32) (harg8 : arg8.IsWhole) (hc0 : cond0_0 i) (hc1 : cond0_1 i) (hc2 : ¬cond0_2 i)
    (x0 : Vec F S8192x128 .f32) (x1 : Vec F S64x128 .f32) (x2 : Vec F S1x64 .f32) (x3 : Vec F S512x4096 .f32) :
    sout0_A_0 c i arg2 harg2 arg3 harg3 arg4 harg4 arg5 harg5 arg6 harg6 arg7 harg7 arg8 harg8 hc0 hc1 hc2 x0 x1 x2 x3 = k0_pay1 x0 x1 x2 := by
  unfold sout0_A_0
  rw [View.read_writes_eq_canon _ _ _ (scover0_A_0 c i arg2 harg2 arg3 harg3 arg4 harg4 arg5 harg5 arg6 harg6 arg7 harg7 arg8 harg8 hc0 hc1 hc2 x0 x1 x2 x3)]
  unfold kernelRun0_A
  dsimp only
  sl_unfold_run_names
  rw [View.canon_unit_zero hz]
  simp only [View.readAt_eq_ld, harg2.read_unread, harg3.read_unread, harg4.read_unread,
    View.ld_unit_zero (S := S8192x128) hz, View.ld_unit_zero (S := S64x128) hz, View.ld_unit_zero (S := S1x64) hz]

/-- First point: `acc` ends holding the adjacency block times the slab of the affine layer just stored. -/
theorem acc_first (c : Dev nD) (i : grid0.Coords) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S512x4096 .f32) (harg5 : arg5.IsWhole) (arg6 : Memref sig .tc .vmem S512x64 .f32) (harg6 : arg6.IsWhole) (arg7 : Memref sig .tc .vmem S8192x64 .f32) (harg7 : arg7.IsWhole) (arg8 : Memref sig .tc .vmem S512x64 .f32) (harg8 : arg8.IsWhole) (hc0 : cond0_0 i) (hc1 : cond0_1 i) (hc2 : ¬cond0_2 i)
    (x0 : Vec F S8192x128 .f32) (x1 : Vec F S64x128 .f32) (x2 : Vec F S1x64 .f32) (x3 : Vec F S512x4096 .f32) :
    sout0_A_1 c i arg2 harg2 arg3 harg3 arg4 harg4 arg5 harg5 arg6 harg6 arg7 harg7 arg8 harg8 hc0 hc1 hc2 x0 x1 x2 x3 = k0_pay3 x3 (slab i (k0_pay1 x0 x1 x2)) := by
  unfold sout0_A_1
  rw [View.read_writes_eq_canon _ _ _ (scover0_A_1 c i arg2 harg2 arg3 harg3 arg4 harg4 arg5 harg5 arg6 harg6 arg7 harg7 arg8 harg8 hc0 hc1 hc2 x0 x1 x2 x3)]
  unfold kernelRun0_A
  dsimp only
  sl_unfold_run_names
  rw [View.canon_unit_zero hz]
  simp only [View.readAt_eq_ld, View.read_writes_junk_eq_canon, View.canon_unit_zero (S := S8192x64) hz, harg2.read_unread,
    harg3.read_unread, harg4.read_unread, harg5.read_unread,
    View.ld_unit_zero (S := S8192x128) hz, View.ld_unit_zero (S := S64x128) hz, View.ld_unit_zero (S := S1x64) hz,
    View.ld_unit_zero (S := S512x4096) hz]

/-- A later first-half point: `acc` ends holding the adjacency block times the slab of the `support` handed over. -/
theorem acc_restart (c : Dev nD) (i : grid0.Coords) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S512x4096 .f32) (harg5 : arg5.IsWhole) (arg6 : Memref sig .tc .vmem S512x64 .f32) (harg6 : arg6.IsWhole) (arg7 : Memref sig .tc .vmem S8192x64 .f32) (harg7 : arg7.IsWhole) (arg8 : Memref sig .tc .vmem S512x64 .f32) (harg8 : arg8.IsWhole) (hc0 : ¬cond0_0 i) (hc1 : cond0_1 i) (hc2 : ¬cond0_2 i)
    (x0 : Vec F S8192x128 .f32) (x1 : Vec F S64x128 .f32) (x2 : Vec F S1x64 .f32) (x3 : Vec F S512x4096 .f32)
    (xs0 : Vec F S8192x64 .f32) :
    sout0_C_1 c i arg2 harg2 arg3 harg3 arg4 harg4 arg5 harg5 arg6 harg6 arg7 harg7 arg8 harg8 hc0 hc1 hc2 x0 x1 x2 x3 xs0 = k0_pay3 x3 (slab i xs0) := by
  unfold sout0_C_1
  rw [View.read_writes_eq_canon _ _ _ (scover0_C_1 c i arg2 harg2 arg3 harg3 arg4 harg4 arg5 harg5 arg6 harg6 arg7 harg7 arg8 harg8 hc0 hc1 hc2 x0 x1 x2 x3 xs0)]
  unfold kernelRun0_C
  dsimp only
  sl_unfold_run_names
  rw [View.canon_unit_zero hz]
  simp only [View.readAt_eq_ld, harg5.read_unread, harg7.read_unread, View.ld_unit_zero (S := S512x4096) hz]

/-- A second-half point: the output block ends holding `acc` plus the adjacency block times the slab of `support`. -/
theorem out_second (c : Dev nD) (i : grid0.Coords) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S512x4096 .f32) (harg5 : arg5.IsWhole) (arg6 : Memref sig .tc .vmem S512x64 .f32) (harg6 : arg6.IsWhole) (arg7 : Memref sig .tc .vmem S8192x64 .f32) (harg7 : arg7.IsWhole) (arg8 : Memref sig .tc .vmem S512x64 .f32) (harg8 : arg8.IsWhole) (hc0 : ¬cond0_0 i) (hc1 : ¬cond0_1 i) (hc2 : cond0_2 i)
    (x0 : Vec F S8192x128 .f32) (x1 : Vec F S64x128 .f32) (x2 : Vec F S1x64 .f32) (x3 : Vec F S512x4096 .f32)
    (xs0 : Vec F S8192x64 .f32) (xs1 : Vec F S512x64 .f32) :
    out0_B_4 c i arg2 harg2 arg3 harg3 arg4 harg4 arg5 harg5 arg6 harg6 arg7 harg7 arg8 harg8 hc0 hc1 hc2 x0 x1 x2 x3 xs0 xs1 = k0_pay4 x3 (slab i xs0) xs1 := by
  unfold out0_B_4
  rw [View.read_writes_eq_canon _ _ _ (cover0_B_4 c i arg2 harg2 arg3 harg3 arg4 harg4 arg5 harg5 arg6 harg6 arg7 harg7 arg8 harg8 hc0 hc1 hc2 x0 x1 x2 x3 xs0 xs1)]
  unfold kernelRun0_B
  dsimp only
  sl_unfold_run_names
  rw [View.canon_unit_zero hz]
  simp only [View.readAt_eq_ld, harg5.read_unread, harg7.read_unread, harg8.read_unread,
    View.ld_unit_zero (S := S512x4096) hz, View.ld_unit_zero (S := S512x64) hz]

end Cert.KernelIdeal.Pieces

end
-- ==== Proof.KernelSweep.lean ====
/-
  What the two carried buffers hold after every grid point, by induction along the walk.

  Points are numbered 0 … 31 in walk order: point `n` is row panel `n / 2`, half `n % 2`. After EVERY point
  `support` holds the affine layer computed at point 0 (only point 0 stores into it), and after every FIRST-half
  point `acc` holds that point's half-contraction: its adjacency block against the slab of `support` its half
  selects. Consequently a SECOND-half point, which reads both, writes into the output block the sum of the two
  half-contractions of its row panel.
-/
import proofs.«132594_g55353538511427_cont_9to1c4b_890_15_alg».proof.Proof.KernelPieces

noncomputable section

open Idealize.ShloMosaic Idealize.ShloMosaic.TcCoe Idealize.SL.Sem

namespace Cert.KernelIdeal.Sweep

open Cert.KernelIdeal Cert.KernelIdeal.Gen Cert.KernelIdeal.Pieces

variable {F : FTy → Type} [FloatOps F]
variable (m : (ℓ : Loc nD τ sig) → Buf (Elt F) ℓ)

/-- The blocks a point sees, under their literal types: the node features, the weights, the bias row (whole arrays at
    every point) and the point's [512, 4096] block of the adjacency. -/
abbrev xblk (c : Dev nD) (t : Fin cfg0.N) : Vec F S8192x128 .f32 := iblk m c 0 t
abbrev wblk (c : Dev nD) (t : Fin cfg0.N) : Vec F S64x128 .f32 := iblk m c 1 t
abbrev bblk (c : Dev nD) (t : Fin cfg0.N) : Vec F S1x64 .f32 := iblk m c 2 t
abbrev ablk (c : Dev nD) (t : Fin cfg0.N) : Vec F S512x4096 .f32 := iblk m c 3 t

/-- The first point of the walk. -/
abbrev first : Fin cfg0.N := ⟨0, by rw [show cfg0.N = 32 from N_0]; decide⟩

/-- The affine layer as point 0 computes it from the blocks it sees. -/
def support (c : Dev nD) : Vec F S8192x64 .f32 := k0_pay1 (xblk m c first) (wblk m c first) (bblk m c first)

/-- The half-contraction of point `t`: its adjacency block against the slab of `support` its half selects. -/
def half (c : Dev nD) (t : Fin cfg0.N) : Vec F S512x64 .f32 :=
  k0_pay3 (ablk m c t) (slab (grid0.coords t) (support m c))

/-- After point `n`: `support` is the affine layer; and if `n` is a first-half point, `acc` is its half-contraction. -/
theorem carried (c : Dev nD) : ∀ (n : ℕ) (h : n < cfg0.N),
    (outsAt0 m c n h).2.1 = support m c ∧ (n % 2 = 0 → (outsAt0 m c n h).2.2 = half m c ⟨n, h⟩)
  | 0, h => by
    have hc0 : cond0_0 (grid0.coords (⟨0, h⟩ : Fin cfg0.N)) := (hcond0_0 ⟨0, h⟩).mpr rfl
    have hc1 : cond0_1 (grid0.coords (⟨0, h⟩ : Fin cfg0.N)) := (hcond0_1 ⟨0, h⟩).mpr rfl
    have hc2 : ¬cond0_2 (grid0.coords (⟨0, h⟩ : Fin cfg0.N)) := fun e => absurd ((hcond0_2 ⟨0, h⟩).mp e) (show ¬(0 % 2 = 1) by decide)
    rw [outsAt0_A m c ⟨0, h⟩ rfl rfl (show ¬(0 % 2 = 1) by decide)]
    dsimp only
    exact ⟨support_first c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) scM0_0 (Memref.isWhole_whole _) scM0_1 (Memref.isWhole_whole _) hc0 hc1 hc2 (xblk m c ⟨0, h⟩) (wblk m c ⟨0, h⟩) (bblk m c ⟨0, h⟩) (ablk m c ⟨0, h⟩),
      fun _ => acc_first c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) scM0_0 (Memref.isWhole_whole _) scM0_1 (Memref.isWhole_whole _) hc0 hc1 hc2 (xblk m c ⟨0, h⟩) (wblk m c ⟨0, h⟩) (bblk m c ⟨0, h⟩) (ablk m c ⟨0, h⟩)⟩
  | n + 1, h => by
    have hN : n + 1 < 32 := lt_of_lt_of_eq h N_0
    have ih := carried c n (Nat.lt_of_succ_lt h)
    have h0 : ¬(⟨n + 1, h⟩ : Fin cfg0.N).val % 32 = 0 := by dsimp only; omega
    by_cases h1 : (n + 1) % 2 = 0
    · have h2 : ¬(n + 1) % 2 = 1 := by omega
      have hc0 : ¬cond0_0 (grid0.coords (⟨n + 1, h⟩ : Fin cfg0.N)) := fun e => h0 ((hcond0_0 ⟨n + 1, h⟩).mp e)
      have hc1 : cond0_1 (grid0.coords (⟨n + 1, h⟩ : Fin cfg0.N)) := (hcond0_1 ⟨n + 1, h⟩).mpr h1
      have hc2 : ¬cond0_2 (grid0.coords (⟨n + 1, h⟩ : Fin cfg0.N)) := fun e => h2 ((hcond0_2 ⟨n + 1, h⟩).mp e)
      rw [outsAt0_C m c ⟨n + 1, h⟩ h0 h1 h2]
      dsimp only
      refine ⟨ih.1, fun _ => ?_⟩
      refine (acc_restart c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) hc0 hc1 hc2 (xblk m c ⟨n + 1, h⟩) (wblk m c ⟨n + 1, h⟩) (bblk m c ⟨n + 1, h⟩) (ablk m c ⟨n + 1, h⟩) (outsAt0 m c n (Nat.lt_of_succ_lt h)).2.1).trans ?_
      exact congrArg (fun s => k0_pay3 (ablk m c ⟨n + 1, h⟩) (slab (grid0.coords (⟨n + 1, h⟩ : Fin cfg0.N)) s)) ih.1
    · have h2 : (n + 1) % 2 = 1 := by omega
      rw [outsAt0_B m c ⟨n + 1, h⟩ h0 h1 h2]
      dsimp only
      exact ⟨ih.1, fun e => absurd e h1⟩

/-- What a second-half point `t` leaves in the output block: the half-contraction of the point before it (the first
    half of the same row panel) plus its own, both against slabs of the one affine layer. -/
theorem out_at_second (c : Dev nD) (t : Fin cfg0.N) (h2 : t.val % 2 = 1) :
    (outsAt0 m c t.val t.isLt).1
      = k0_pay4 (ablk m c t) (slab (grid0.coords t) (support m c))
          (half m c ⟨t.val - 1, Nat.lt_of_le_of_lt (Nat.sub_le _ _) t.isLt⟩) := by
  have hN : t.val < 32 := lt_of_lt_of_eq t.isLt N_0
  have h0 : ¬t.val % 32 = 0 := by omega
  have h1 : ¬t.val % 2 = 0 := by omega
  have hc0 : ¬cond0_0 (grid0.coords t) := fun e => h0 ((hcond0_0 t).mp e)
  have hc1 : ¬cond0_1 (grid0.coords t) := fun e => h1 ((hcond0_1 t).mp e)
  have hc2 : cond0_2 (grid0.coords t) := (hcond0_2 t).mpr h2
  have hp := carried m c (t.val - 1) (Nat.lt_of_le_of_lt (Nat.sub_le _ _) t.isLt)
  rw [outsAt0_B m c t h0 h1 h2]
  dsimp only
  refine (out_second c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 hc2 (xblk m c t) (wblk m c t) (bblk m c t) (ablk m c t)
    (outsAt0 m c (t.val - 1) (Nat.lt_of_le_of_lt (Nat.sub_le _ _) t.isLt)).2.1
    (outsAt0 m c (t.val - 1) (Nat.lt_of_le_of_lt (Nat.sub_le _ _) t.isLt)).2.2).trans ?_
  rw [hp.1, hp.2 (by omega)]

end Cert.KernelIdeal.Sweep

end
-- ==== Proof.KernelPayloads.lean ====
/-
  The body's arithmetic over the extended reals, read entry by entry.

  Two contractions occur. The affine layer contracts the 128 input features of a node's row of x with a ROW of W
  (both operands carry the feature index on their second coordinate) into a zero accumulator and adds the bias
  row broadcast down the nodes: entry (j, c) is `(∑ k, x[j, k] · W[c, k]) + b[0, c]`, which is
  `Cert.GraphConv.dense`. The aggregation contracts the 4096 columns of an adjacency block with the 4096 rows of a
  slab of the affine layer, again into a zero accumulator: entry (r, c) is `∑ q, a[r, q] · s[q, c]`.
  A contraction into the zero accumulator is the bare sum, since `0 + y = y` on the extended reals.
-/
import proofs.«132594_g55353538511427_cont_9to1c4b_890_15_alg».proof.Proof.GraphConvSpec
import proofs.«132594_g55353538511427_cont_9to1c4b_890_15_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen Cert.GraphConv

/-! ## The feature contraction: x's row against W's row -/

theorem lhs_feat_0 (i : S8192x64.Idx) (q : dot_S8192x128_S64x128_S8192x64_1_1_0_0_n_n.contr.Idx) :
    (dot_S8192x128_S64x128_S8192x64_1_1_0_0_n_n.lhsIdx i q 0).val = (i 0).val := by
  unfold DotDims.lhsIdx
  rw [dif_neg (show ¬(0 : Fin S8192x128.rank) ∈ dot_S8192x128_S64x128_S8192x64_1_1_0_0_n_n.lhsBatch by decide), dif_pos (show (0 : Fin S8192x128.rank) ∈ dot_S8192x128_S64x128_S8192x64_1_1_0_0_n_n.lhsNonContracting by decide)]
  rfl
theorem lhs_feat_1 (i : S8192x64.Idx) (q : dot_S8192x128_S64x128_S8192x64_1_1_0_0_n_n.contr.Idx) :
    (dot_S8192x128_S64x128_S8192x64_1_1_0_0_n_n.lhsIdx i q 1).val = (q ⟨0, by decide⟩).val :=
  dot_S8192x128_S64x128_S8192x64_1_1_0_0_n_n.lhsIdx_val_of_single rfl i q
theorem rhs_feat_0 (i : S8192x64.Idx) (q : dot_S8192x128_S64x128_S8192x64_1_1_0_0_n_n.contr.Idx) :
    (dot_S8192x128_S64x128_S8192x64_1_1_0_0_n_n.rhsIdx i q 0).val = (i 1).val := by
  unfold DotDims.rhsIdx
  rw [dif_neg (show ¬(0 : Fin S64x128.rank) ∈ dot_S8192x128_S64x128_S8192x64_1_1_0_0_n_n.rhsBatch by decide), dif_pos (show (0 : Fin S64x128.rank) ∈ dot_S8192x128_S64x128_S8192x64_1_1_0_0_n_n.rhsNonContracting by decide)]
  rfl
theorem rhs_feat_1 (i : S8192x64.Idx) (q : dot_S8192x128_S64x128_S8192x64_1_1_0_0_n_n.contr.Idx) :
    (dot_S8192x128_S64x128_S8192x64_1_1_0_0_n_n.rhsIdx i q 1).val = (q ⟨0, by decide⟩).val :=
  dot_S8192x128_S64x128_S8192x64_1_1_0_0_n_n.rhsIdx_val_of_single rfl i q

/-- Entry (j, c) of x's rows contracted with W's rows into the zero accumulator: the sum over the features. -/
theorem feature_contraction (x : FVec Ideal S8192x128 .f32) (w : FVec Ideal S64x128 .f32) (j : Fin 8192) (c : Fin 64) :
    matmul dot_S8192x128_S64x128_S8192x64_1_1_0_0_n_n none x w (constant (F := Ideal) S8192x64 .f32 0x00000000#32) (ix2 j c)
      = ∑ k : Fin 128, x (ix2 j k) * w (ix2 c k) := by
  simp only [matmul]
  rw [Ideal.matmul_constant_zero_apply, ← Equiv.sum_comp (contrEquiv1 dot_S8192x128_S64x128_S8192x64_1_1_0_0_n_n 128 rfl rfl).symm]
  refine Finset.sum_congr rfl fun k _ => ?_
  have hk := contrEquiv1_symm_val dot_S8192x128_S64x128_S8192x64_1_1_0_0_n_n 128 rfl rfl k
  have el : dot_S8192x128_S64x128_S8192x64_1_1_0_0_n_n.lhsIdx (ix2 j c) ((contrEquiv1 dot_S8192x128_S64x128_S8192x64_1_1_0_0_n_n 128 rfl rfl).symm k) = ix2 j k := funext fun a => Fin.ext (by
    match a with
    | ⟨0, _⟩ => exact lhs_feat_0 _ _
    | ⟨1, _⟩ => exact (lhs_feat_1 _ _).trans hk)
  have er : dot_S8192x128_S64x128_S8192x64_1_1_0_0_n_n.rhsIdx (ix2 j c) ((contrEquiv1 dot_S8192x128_S64x128_S8192x64_1_1_0_0_n_n 128 rfl rfl).symm k) = ix2 c k := funext fun a => Fin.ext (by
    match a with
    | ⟨0, _⟩ => exact rhs_feat_0 _ _
    | ⟨1, _⟩ => exact (rhs_feat_1 _ _).trans hk)
  rw [el, er]

/-- The affine-layer payload at node `j`, feature `c`: the feature contraction plus the bias row's entry `c`. -/
theorem affine_apply (x0 : FVec Ideal S8192x128 .f32) (x1 : FVec Ideal S64x128 .f32) (x2 : FVec Ideal S1x64 .f32)
    (j : Fin 8192) (c : Fin 64) :
    k0_pay1 (F := Ideal) x0 x1 x2 (ix2 j c) = dense x0 x1 (fun c => x2 (ix2 0 c)) j c := by
  unfold k0_pay1 dense
  dsimp only
  refine (congrFun (shapeCast_self _ _) (ix2 j c)).trans ?_
  show matmul dot_S8192x128_S64x128_S8192x64_1_1_0_0_n_n none x0 x1 (constant (F := Ideal) S8192x64 .f32 0x00000000#32) (ix2 j c)
      + broadcastTo S8192x64 (shapeCast S1x64 x2 shapeCasts_S1x64_S1x64) broadcasts_S1x64_S8192x64 (ix2 j c) = _
  refine congrArg₂ (· + ·) (feature_contraction x0 x1 j c) ?_
  refine (broadcastTo_apply _ broadcasts_S1x64_S8192x64 (ix2 j c) (ix2 (0 : Fin 1) c) (fun a => match a with
    | ⟨0, _⟩ => by show 0 = if (1 : Nat) = 1 then 0 else j.val; rw [if_pos rfl]
    | ⟨1, _⟩ => by show c.val = if (64 : Nat) = 1 then 0 else c.val; rw [if_neg (by decide)])).trans ?_
  exact congrFun (shapeCast_self x2 _) (ix2 (0 : Fin 1) c)

/-! ## The node contraction over one half: an adjacency block against a slab -/

theorem lhs_node_0 (i : S512x64.Idx) (q : dot_S512x4096_S4096x64_S512x64_1_0_0_1_n_n.contr.Idx) :
    (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide), dif_pos (show (0 : Fin S512x4096.rank) ∈ dot_S512x4096_S4096x64_S512x64_1_0_0_1_n_n.lhsNonContracting by decide)]
  rfl
theorem lhs_node_1 (i : S512x64.Idx) (q : dot_S512x4096_S4096x64_S512x64_1_0_0_1_n_n.contr.Idx) :
    (dot_S512x4096_S4096x64_S512x64_1_0_0_1_n_n.lhsIdx i q 1).val = (q ⟨0, by decide⟩).val :=
  dot_S512x4096_S4096x64_S512x64_1_0_0_1_n_n.lhsIdx_val_of_single rfl i q
theorem rhs_node_0 (i : S512x64.Idx) (q : dot_S512x4096_S4096x64_S512x64_1_0_0_1_n_n.contr.Idx) :
    (dot_S512x4096_S4096x64_S512x64_1_0_0_1_n_n.rhsIdx i q 0).val = (q ⟨0, by decide⟩).val :=
  dot_S512x4096_S4096x64_S512x64_1_0_0_1_n_n.rhsIdx_val_of_single rfl i q
theorem rhs_node_1 (i : S512x64.Idx) (q : dot_S512x4096_S4096x64_S512x64_1_0_0_1_n_n.contr.Idx) :
    (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide), dif_pos (show (1 : Fin S4096x64.rank) ∈ dot_S512x4096_S4096x64_S512x64_1_0_0_1_n_n.rhsNonContracting by decide)]
  rfl

/-- The half-contraction payload at row `r` of the panel, feature `c`: the block's row against the slab's column. -/
theorem half_apply (a : FVec Ideal S512x4096 .f32) (s : FVec Ideal S4096x64 .f32) (r : Fin 512) (c : Fin 64) :
    k0_pay2 (F := Ideal) a s (ix2 r c) = ∑ q : Fin 4096, a (ix2 r q) * s (ix2 q c) := by
  unfold k0_pay2
  simp only [matmul]
  rw [Ideal.matmul_constant_zero_apply, ← Equiv.sum_comp (contrEquiv1 dot_S512x4096_S4096x64_S512x64_1_0_0_1_n_n 4096 rfl rfl).symm]
  refine Finset.sum_congr rfl fun k _ => ?_
  have hk := contrEquiv1_symm_val dot_S512x4096_S4096x64_S512x64_1_0_0_1_n_n 4096 rfl rfl k
  have el : dot_S512x4096_S4096x64_S512x64_1_0_0_1_n_n.lhsIdx (ix2 r c) ((contrEquiv1 dot_S512x4096_S4096x64_S512x64_1_0_0_1_n_n 4096 rfl rfl).symm k) = ix2 r k := funext fun a => Fin.ext (by
    match a with
    | ⟨0, _⟩ => exact lhs_node_0 _ _
    | ⟨1, _⟩ => exact (lhs_node_1 _ _).trans hk)
  have er : dot_S512x4096_S4096x64_S512x64_1_0_0_1_n_n.rhsIdx (ix2 r c) ((contrEquiv1 dot_S512x4096_S4096x64_S512x64_1_0_0_1_n_n 4096 rfl rfl).symm k) = ix2 k c := funext fun a => Fin.ext (by
    match a with
    | ⟨0, _⟩ => exact (rhs_node_0 _ _).trans hk
    | ⟨1, _⟩ => exact rhs_node_1 _ _)
  rw [el, er]

/-- What a first-half point stores into `acc` is the half-contraction itself (the cast is between equal shapes). -/
theorem restart_apply (a : FVec Ideal S512x4096 .f32) (s : FVec Ideal S4096x64 .f32) (r : Fin 512) (c : Fin 64) :
    k0_pay3 (F := Ideal) a s (ix2 r c) = ∑ q : Fin 4096, a (ix2 r q) * s (ix2 q c) := by
  unfold k0_pay3
  exact (congrFun (shapeCast_self _ _) (ix2 r c)).trans (half_apply a s r c)

/-- What a second-half point stores into the output block: `acc` plus the half-contraction. -/
theorem finish_apply (a : FVec Ideal S512x4096 .f32) (s : FVec Ideal S4096x64 .f32) (acc : FVec Ideal S512x64 .f32)
    (r : Fin 512) (c : Fin 64) :
    k0_pay4 (F := Ideal) a s acc (ix2 r c) = acc (ix2 r c) + ∑ q : Fin 4096, a (ix2 r q) * s (ix2 q c) := by
  unfold k0_pay4
  show acc (ix2 r c) + k0_pay2 (F := Ideal) a s (ix2 r c) = _
  rw [half_apply]

end Cert.KernelIdeal.Payload

end
-- ==== Proof.KernelResult.lean ====
/-
  The kernel's result array, over the extended reals, is the graph convolution of the arrays the region finds.

  Row panel `p` of the output is written back once, after the second-half point `2p + 1`, and holds the sum of the
  panel's two half-contractions. Reading the blocks back through their windows — the adjacency block of point
  `n` is rows `512·(n/2) …`, columns `4096·(n%2) …` of adj; the slab of half `h` is rows `4096·h …` of the affine
  layer; x, W and the bias row are seen whole — entry (512p + r, c) is
      ∑ q < 4096, adj[512p + r, q] · dense q c  +  ∑ q < 4096, adj[512p + r, 4096 + q] · dense (4096 + q) c,
  which is the contraction over all 8192 nodes split at the middle (`Cert.GraphConv.conv_halves`). The sixteen
  write-backs tile the output array, so the whole array is `conv`.
-/
import proofs.«132594_g55353538511427_cont_9to1c4b_890_15_alg».proof.Proof.GraphConvSpec
import proofs.«132594_g55353538511427_cont_9to1c4b_890_15_alg».proof.Proof.KernelSweep
import proofs.«132594_g55353538511427_cont_9to1c4b_890_15_alg».proof.Proof.KernelPayloads
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Pieces Cert.KernelIdeal.Sweep Cert.KernelIdeal.Payload
open Cert.GraphConv

variable (m : (ℓ : Loc nD τ sig) → Buf (Elt Ideal) ℓ) (ρ : Dev nD → PrngReg)

/-- The four arrays as the region finds them, under their literal types: node features, adjacency, weights, and the
    bias as the [1, 64] row the host reshaped it to. -/
abbrev xarr (c : Dev nD) : Vec Ideal S8192x128 .f32 := V m c main_arg0
abbrev adjarr (c : Dev nD) : Vec Ideal S8192x8192 .f32 := V m c main_arg1
abbrev warr (c : Dev nD) : Vec Ideal S64x128 .f32 := V m c main_arg2
abbrev brow (c : Dev nD) : Vec Ideal S1x64 .f32 := V m c main_call0_v0

/-- The graph convolution of those arrays. -/
def G (c : Dev nD) : Vec Ideal S8192x64 .f32 :=
  conv (xarr m c) (adjarr m c) (warr m c) (fun f => brow m c (ix2 (0 : Fin 1) f))

/-- The printed index maps over the grid: x, W and the bias row always at block (0, 0); the adjacency at block
    (n / 2, n % 2); the output at block (n / 2, 0); and the second grid coordinate, the half, is n % 2. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 2 ∧ win0_3.index t (1 : Fin 2) = t.val % 2
    ∧ win0_4.index t (0 : Fin 2) = t.val / 2 ∧ win0_4.index t (1 : Fin 2) = 0
    ∧ ((grid0.coords t) 1).val = t.val % 2 :=
  (by decide +kernel : ∀ t : Fin grid0.N, _)

/-! ## The blocks read back through their windows -/

theorem xblk_eq (c : Dev nD) (t : Fin cfg0.N) : xblk m c t = xarr m c := by
  obtain ⟨e0, e1, -⟩ := idx_facts t
  funext j
  show V m c main_arg0 (((cfg0.win 0).blk t).view.emb j) = V m c main_arg0 j
  refine congrArg (V m c main_arg0) (funext fun a => Fin.ext ?_)
  match a with
  | ⟨0, _⟩ => show win0_0.index t (0 : Fin 2) * 8192 + 1 * (j 0).val = (j 0).val; rw [e0]; omega
  | ⟨1, _⟩ => show win0_0.index t (1 : Fin 2) * 128 + 1 * (j 1).val = (j 1).val; rw [e1]; omega

theorem wblk_eq (c : Dev nD) (t : Fin cfg0.N) : wblk m c t = warr m c := by
  obtain ⟨-, -, e0, e1, -⟩ := idx_facts t
  funext j
  show V m c main_arg2 (((cfg0.win 1).blk t).view.emb j) = V m c main_arg2 j
  refine congrArg (V m c main_arg2) (funext fun a => Fin.ext ?_)
  match a with
  | ⟨0, _⟩ => show win0_1.index t (0 : Fin 2) * 64 + 1 * (j 0).val = (j 0).val; rw [e0]; omega
  | ⟨1, _⟩ => show win0_1.index t (1 : Fin 2) * 128 + 1 * (j 1).val = (j 1).val; rw [e1]; omega

theorem bblk_eq (c : Dev nD) (t : Fin cfg0.N) : bblk m c t = brow m c := by
  obtain ⟨-, -, -, -, e0, e1, -⟩ := idx_facts t
  funext j
  show V m c main_call0_v0 (((cfg0.win 2).blk t).view.emb j) = V m c main_call0_v0 j
  refine congrArg (V m c main_call0_v0) (funext fun a => Fin.ext ?_)
  match a with
  | ⟨0, _⟩ => show win0_2.index t (0 : Fin 2) * 1 + 1 * (j 0).val = (j 0).val; rw [e0]; omega
  | ⟨1, _⟩ => show win0_2.index t (1 : Fin 2) * 64 + 1 * (j 1).val = (j 1).val; rw [e1]; omega

/-- Entry (r, q) of point `t`'s adjacency block is adj at row `512·(t/2) + r`, column `4096·(t%2) + q`. -/
theorem ablk_apply (c : Dev nD) (t : Fin cfg0.N) (r : Fin 512) (q : Fin 4096) (R Q : Fin 8192)
    (hR : R.val = 512 * (t.val / 2) + r.val) (hQ : Q.val = 4096 * (t.val % 2) + q.val) :
    ablk m c t (ix2 r q) = adjarr m c (ix2 R Q) := by
  obtain ⟨-, -, -, -, -, -, e0, e1, -⟩ := idx_facts t
  show V m c main_arg1 (((cfg0.win 3).blk t).view.emb (ix2 r q)) = V m c main_arg1 (ix2 R Q)
  refine congrArg (V m c main_arg1) (funext fun a => Fin.ext ?_)
  match a with
  | ⟨0, _⟩ => show win0_3.index t (0 : Fin 2) * 512 + 1 * r.val = R.val; rw [e0, hR]; omega
  | ⟨1, _⟩ => show win0_3.index t (1 : Fin 2) * 4096 + 1 * q.val = Q.val; rw [e1, hQ]; omega

/-- Row `q` of the slab that half `i 1` selects is row `4096·(i 1) + q` of the buffer. -/
theorem slab_apply (i : grid0.Coords) (s : Vec Ideal S8192x64 .f32) (q : Fin 4096) (f : Fin 64) (J : Fin 8192)
    (hJ : J.val = 4096 * (i 1).val + q.val) : slab i s (ix2 q f) = s (ix2 J f) := by
  show s ((Rect.unit (s := S8192x64) (k0_off1 i) S4096x64.size (k0_off1_inb i)).idx (ix2 q f)) = s (ix2 J f)
  refine congrArg s (funext fun a => Fin.ext ?_)
  have e := k0_off1_eq i
  match a with
  | ⟨0, _⟩ => show k0_off1 i (0 : Fin 2) + 1 * q.val = J.val; rw [e, hJ]; show 4096 * (i 1).val + 1 * q.val = _; omega
  | ⟨1, _⟩ => show k0_off1 i (1 : Fin 2) + 1 * f.val = f.val; rw [e]; show 0 + 1 * f.val = _; omega

/-- The affine layer point 0 stored, entry by entry: `dense` of the arrays. -/
theorem support_apply (c : Dev nD) (j : Fin 8192) (f : Fin 64) :
    support m c (ix2 j f) = dense (xarr m c) (warr m c) (fun f => brow m c (ix2 (0 : Fin 1) f)) j f := by
  unfold support
  rw [xblk_eq, wblk_eq, bblk_eq]
  exact affine_apply (xarr m c) (warr m c) (brow m c) j f

/-! ## One row panel -/

/-- What the second-half point `t` of a row panel writes into the output block, entry (r, f): the output entry of row
    `512·(t/2) + r`. -/
theorem panel_entry (c : Dev nD) (t : Fin cfg0.N) (h2 : t.val % 2 = 1) (r : Fin 512) (f : Fin 64) (R : Fin 8192)
    (hR : R.val = 512 * (t.val / 2) + r.val) :
    k0_pay4 (F := Ideal) (ablk m c t) (slab (grid0.coords t) (support m c))
        (half m c ⟨t.val - 1, Nat.lt_of_le_of_lt (Nat.sub_le _ _) t.isLt⟩) (ix2 r f)
      = G m c (ix2 R f) := by
  have hN : t.val < 32 := lt_of_lt_of_eq t.isLt N_0
  have hk1 : ((grid0.coords t) 1).val = t.val % 2 := (idx_facts t).2.2.2.2.2.2.2.2.2.2
  have hk0 : ((grid0.coords (⟨t.val - 1, Nat.lt_of_le_of_lt (Nat.sub_le _ _) t.isLt⟩ : Fin cfg0.N)) 1).val = (t.val - 1) % 2 :=
    (idx_facts ⟨t.val - 1, Nat.lt_of_le_of_lt (Nat.sub_le _ _) t.isLt⟩).2.2.2.2.2.2.2.2.2.2
  rw [finish_apply]
  unfold half
  rw [restart_apply]
  show _ = conv (xarr m c) (adjarr m c) (warr m c) (fun f => brow m c (ix2 (0 : Fin 1) f)) (ix2 R f)
  rw [conv_halves]
  refine congrArg₂ (· + ·) (Finset.sum_congr rfl fun q _ => ?_) (Finset.sum_congr rfl fun q _ => ?_)
  · have hq : q.val < 4096 := q.isLt
    refine congrArg₂ (· * ·)
      (ablk_apply m c ⟨t.val - 1, Nat.lt_of_le_of_lt (Nat.sub_le _ _) t.isLt⟩ r q R (lo q) (by rw [hR]; dsimp only; omega) (by dsimp only; omega))
      ((slab_apply _ (support m c) q f (lo q) (by rw [hk0]; dsimp only; omega)).trans (support_apply m c (lo q) f))
  · have hq : q.val < 4096 := q.isLt
    refine congrArg₂ (· * ·)
      (ablk_apply m c t r q R (hi q) hR (by dsimp only; omega))
      ((slab_apply _ (support m c) q f (hi q) (by rw [hk1]; dsimp only; omega)).trans (support_apply m c (hi q) f))

/-! ## From the panels to the array -/

/-- WHAT A WRITE-BACK WRITES is its block of the graph convolution. -/
theorem flushed_eq (c : Dev nD) (t : Fin cfg0.N) (hf : (cfg0.win 4).flush t = true) :
    (dats m 0 c).flushed 4 t = ((cfg0.win 4).blk t).view.read (Elt Ideal) (G m c) := by
  have h2 : t.val % 2 = 1 := (flush0_4 t).mp hf
  have e0 : win0_4.index t (0 : Fin 2) = t.val / 2 := (idx_facts t).2.2.2.2.2.2.2.2.1
  have e1 : win0_4.index t (1 : Fin 2) = 0 := (idx_facts t).2.2.2.2.2.2.2.2.2.1
  have hN : t.val < 32 := lt_of_lt_of_eq t.isLt N_0
  rw [Cert.KernelIdeal.Value.flushed4, out_at_second m c t h2]
  funext y
  have hy0 : (y 0).val < 512 := (y 0).isLt
  have hy1 : (y 1).val < 64 := (y 1).isLt
  obtain ⟨r, f, rfl⟩ : ∃ (r : Fin 512) (f : Fin 64), y = ix2 r f :=
    ⟨⟨(y 0).val, hy0⟩, ⟨(y 1).val, hy1⟩, funext fun a => match a with | ⟨0, _⟩ => rfl | ⟨1, _⟩ => rfl⟩
  show k0_pay4 (F := Ideal) (ablk m c t) (slab (grid0.coords t) (support m c))
      (half m c ⟨t.val - 1, Nat.lt_of_le_of_lt (Nat.sub_le _ _) t.isLt⟩) (ix2 r f)
    = G m c (((cfg0.win 4).blk t).view.emb (ix2 r f))
  refine (panel_entry m c t h2 r f ⟨512 * (t.val / 2) + r.val, by have := r.isLt; omega⟩ rfl).trans
    (congrArg (G m c) (funext fun a => Fin.ext ?_))
  match a with
  | ⟨0, _⟩ => show 512 * (t.val / 2) + r.val = win0_4.index t (0 : Fin 2) * 512 + 1 * r.val; rw [e0]; omega
  | ⟨1, _⟩ => show f.val = win0_4.index t (1 : Fin 2) * 64 + 1 * f.val; rw [e1]; omega

/-- An index of the array is in point `t`'s block iff each coordinate is in the block's range on its axis. -/
theorem mem_blk (t : Fin cfg0.N) (i : S8192x64.Idx) :
    i ∈ ((cfg0.win 4).blk t).view.set ↔ ∀ a : Fin 2, win0_4.index t a * S512x64.size a ≤ (i a).val ∧ (i a).val < win0_4.index t a * S512x64.size a + S512x64.size a := by
  show i ∈ ((View.whole main_v0).slice (win0_4.rect t)).set ↔ _
  rw [View.set_slice_whole, Rect.mem_set_unit]
  exact Iff.rfl

/-- The sixteen write-backs tile the output: row `ρ` lies in the block of point `2·(ρ/512) + 1`. -/
theorem cover (i : S8192x64.Idx) : ∃ t : Fin cfg0.N, (cfg0.win 4).flush t = true ∧ i ∈ ((cfg0.win 4).blk t).view.set := by
  have hi0 : (i 0).val < 8192 := (i 0).isLt
  have hi1 : (i 1).val < 64 := (i 1).isLt
  have hlt : 2 * ((i 0).val / 512) + 1 < cfg0.N := by rw [show cfg0.N = 32 from N_0]; omega
  have e0 : win0_4.index ⟨2 * ((i 0).val / 512) + 1, hlt⟩ (0 : Fin 2) = (2 * ((i 0).val / 512) + 1) / 2 := (idx_facts ⟨_, hlt⟩).2.2.2.2.2.2.2.2.1
  have e1 : win0_4.index ⟨2 * ((i 0).val / 512) + 1, hlt⟩ (1 : Fin 2) = 0 := (idx_facts ⟨_, hlt⟩).2.2.2.2.2.2.2.2.2.1
  refine ⟨⟨2 * ((i 0).val / 512) + 1, hlt⟩, (flush0_4 _).mpr (by dsimp only; omega), ?_⟩
  rw [mem_blk]
  intro a
  match a with
  | ⟨0, _⟩ =>
    show win0_4.index ⟨2 * ((i 0).val / 512) + 1, hlt⟩ (0 : Fin 2) * 512 ≤ (i 0).val ∧ (i 0).val < win0_4.index ⟨2 * ((i 0).val / 512) + 1, hlt⟩ (0 : Fin 2) * 512 + 512
    rw [e0]; omega
  | ⟨1, _⟩ =>
    show win0_4.index ⟨2 * ((i 0).val / 512) + 1, hlt⟩ (1 : Fin 2) * 64 ≤ (i 1).val ∧ (i 1).val < win0_4.index ⟨2 * ((i 0).val / 512) + 1, hlt⟩ (1 : Fin 2) * 64 + 64
    rw [e1]; omega

/-- THE OUTPUT ARRAY after the run is the graph convolution of the arrays the region finds. -/
theorem final (c : Dev nD) : (dats m 0 c).arrAt 4 cfg0.N = G m c :=
  (dats m 0 c).arrAt_eq_of_cover 4 (G m c) (flushed_eq m c) cover

/-! ## The arrays the region finds, in terms of the launch contents -/

/-- The bias row the region finds is the host's reshape of the bias: entry (0, f) is the bias's entry f. -/
theorem brow_apply (c : Dev nD) (f : Fin 64) :
    brow m c (ix2 (0 : Fin 1) f) = m ((c : Thread nD τ).loc main_arg3) (ix1 f) := by
  have e : (V m c main_call0_v0 : S1x64.Idx → EReal)
      = shapeCast S1x64 (m ((c : Thread nD τ).loc main_arg3)) shapeCasts_S64_S1x64 := by
    dsimp only [Gen.V, Gen.hostOps0]; after_results; rfl
  show (V m c main_call0_v0 : S1x64.Idx → EReal) (ix2 (0 : Fin 1) f) = _
  rw [e]
  exact shapeCast_a_1a_apply _ shapeCasts_S64_S1x64 (0 : Fin 1) f

/-- The graph convolution of the arrays the region finds is that of the launch contents. -/
theorem G_eq (c : Dev nD) :
    G m c = conv (m ((c : Thread nD τ).loc main_arg0)) (m ((c : Thread nD τ).loc main_arg1)) (m ((c : Thread nD τ).loc main_arg2))
      (fun f => m ((c : Thread nD τ).loc main_arg3) (ix1 f)) := by
  unfold G
  rw [show xarr m c = m ((c : Thread nD τ).loc main_arg0) from V_main_arg0 m c,
    show adjarr m c = m ((c : Thread nD τ).loc main_arg1) from V_main_arg1 m c,
    show warr m c = m ((c : Thread nD τ).loc main_arg2) from V_main_arg2 m c]
  exact congrArg (conv _ _ _) (funext fun f => brow_apply m c f)

/-! ## The run, read -/

/-- Every weakly fair execution of the kernel program terminates with the result array at the graph convolution
    of the launch contents of its four arguments, and the arguments unchanged. -/
theorem run : θ_run defs (onTc (τ := τ) (main (F := Ideal))) ⟨m, fun _ => 0, ρ⟩ fun r => ∀ c : Dev nD,
      r.2.mem ((c : Thread nD τ).loc main_v0)
        = conv (m ((c : Thread nD τ).loc main_arg0)) (m ((c : Thread nD τ).loc main_arg1)) (m ((c : Thread nD τ).loc main_arg2))
            (fun f => m ((c : Thread nD τ).loc main_arg3) (ix1 f))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1.trans (final m c)).trans (G_eq m c), (h c).2⟩)
    (Cert.KernelIdeal.Value.run_blocks m ρ)

end Cert.KernelIdeal.Result

end
-- ==== Proof.ReferenceConv.lean ====
/-
  The reference computes the graph convolution: its result term, read at an index over the extended reals, is
  `Cert.GraphConv.conv` of its four arguments.

  The reference forms `x · Wᵀ` (a transpose of W, then a contraction of x's features with the transposed rows), adds
  the bias broadcast along the nodes, and contracts the adjacency's columns with the result's rows. Entry (r, c)
  is therefore `∑ j, adj[r, j] · ((∑ k, x[j, k] · W[c, k]) + b[c])`: the transpose only renames which coordinate of W
  the feature index sits on, and the two broadcasts only drop the node coordinate of the bias.
-/
import proofs.«132594_g55353538511427_cont_9to1c4b_890_15_alg».proof.Proof.GraphConvSpec
import proofs.«132594_g55353538511427_cont_9to1c4b_890_15_alg».proof.Proof.Gen.ReferenceIdeal.Read

noncomputable section

open Idealize.ShloMosaic Idealize.ShloMosaic.ValueIdx

namespace Cert.ReferenceIdeal.RefValue

open Cert.ReferenceIdeal Cert.ReferenceIdeal.Read Cert.GraphConv

/-- The reference's result, as a whole array over the extended reals, is the graph convolution of its arguments
    (the bias read through its one coordinate). -/
theorem result_eq_conv (x : S8192x128.Idx → EReal) (adj : S8192x8192.Idx → EReal) (w : S64x128.Idx → EReal)
    (b : S64.Idx → EReal) :
    val_main_v5 (F := Ideal) x adj w b = conv x adj w (fun c => b (ix1 c)) := by
  funext i
  rw [val_main_v5_apply]
  unfold conv
  refine Finset.sum_congr rfl fun j _ => ?_
  -- the adjacency is read at row `i 0`, column `j`
  have eadj : lidx_main_v5 i j = ix2 (i 0) j :=
    funext fun a => Fin.ext (by match a with | ⟨0, _⟩ => rfl | ⟨1, _⟩ => rfl)
  rw [eadj, val_main_v4_apply, val_main_v1_apply, val_main_v3_apply, val_main_v2_apply]
  -- the bias is read at feature `i 1`
  have ebias : idx_main_v2 (idx_main_v3 (ridx_main_v5 i j)) = ix1 (i 1) :=
    funext fun a => Fin.ext (by match a with | ⟨0, _⟩ => rfl)
  rw [ebias]
  unfold dense
  refine congrArg (adj (ix2 (i 0) j) * ·) (congrArg (· + b (ix1 (i 1))) ?_)
  refine Finset.sum_congr rfl fun k _ => ?_
  -- the features of node `j`, and row `i 1` of W through the transpose
  have ex : lidx_main_v1 (ridx_main_v5 i j) k = ix2 j k :=
    funext fun a => Fin.ext (by match a with | ⟨0, _⟩ => rfl | ⟨1, _⟩ => rfl)
  have ew : idx_main_v0 (ridx_main_v1 (ridx_main_v5 i j) k) = ix2 (i 1) k :=
    funext fun a => Fin.ext (by match a with | ⟨0, _⟩ => rfl | ⟨1, _⟩ => rfl)
  rw [val_main_v0_apply, ex, ew]
  rfl

end Cert.ReferenceIdeal.RefValue

end
-- ==== Proof.lean ====
/-
  A dense graph-convolution layer, blocked, against its two-line reference.

  Both programs compute, over the extended reals,
      out[r, c] = ∑ j < 8192, adj[r, j] · ((∑ k < 128, x[j, k] · W[c, k]) + b[c]).
  The reference does so with two whole contractions. The kernel walks 16 row panels of 512 output rows, each in two
  steps over the halves of the node axis: at the very first step it computes the affine layer
  `(∑ k, x[j, k] · W[c, k]) + b[c]` of all 8192 nodes once and keeps it; at a first-half step it keeps the
  contraction of its adjacency block with the first 4096 rows of the affine layer; at a second-half step it adds the
  contraction with the last 4096 rows and writes the panel out. The two agree because a sum over 8192 nodes is the
  sum over the first 4096 plus the sum over the last 4096 — a law of commutative monoids, valid for every extended
  real, so the finiteness of the inputs is not used. The format of the floats plays no part: no operation of the
  kernel was rewritten in passing to the extended reals, so `preserves` has nothing to state.

  Modules: GraphConvSpec (the function and the split law), ReferenceConv (the reference is that function),
  KernelPayloads (the body's two contractions entry by entry), KernelPieces (what each kind of step stores),
  KernelSweep (what is kept after every step, by induction along the walk), KernelResult (the panels tile the
  output array, which is therefore that function).
-/
import proofs.«132594_g55353538511427_cont_9to1c4b_890_15_alg».proof.Defs
import proofs.«132594_g55353538511427_cont_9to1c4b_890_15_alg».proof.Proof.Gen.Kernel
import proofs.«132594_g55353538511427_cont_9to1c4b_890_15_alg».proof.Proof.Gen.Kernel.Skeleton
import proofs.«132594_g55353538511427_cont_9to1c4b_890_15_alg».proof.Proof.Gen.Kernel.Launch
import proofs.«132594_g55353538511427_cont_9to1c4b_890_15_alg».proof.Proof.Gen.Kernel.Points
import proofs.«132594_g55353538511427_cont_9to1c4b_890_15_alg».proof.Proof.Gen.Kernel.Frame
import proofs.«132594_g55353538511427_cont_9to1c4b_890_15_alg».proof.Proof.Gen.KernelIdeal
import proofs.«132594_g55353538511427_cont_9to1c4b_890_15_alg».proof.Proof.Gen.KernelIdeal.Skeleton
import proofs.«132594_g55353538511427_cont_9to1c4b_890_15_alg».proof.Proof.Gen.KernelIdeal.Launch
import proofs.«132594_g55353538511427_cont_9to1c4b_890_15_alg».proof.Proof.Gen.KernelIdeal.Points
import proofs.«132594_g55353538511427_cont_9to1c4b_890_15_alg».proof.Proof.Gen.KernelIdeal.Frame
import proofs.«132594_g55353538511427_cont_9to1c4b_890_15_alg».proof.Proof.Gen.ReferenceIdeal
import proofs.«132594_g55353538511427_cont_9to1c4b_890_15_alg».proof.Proof.Gen.Pre_finite_inputs
import proofs.«132594_g55353538511427_cont_9to1c4b_890_15_alg».proof.Proof.KernelResult
import proofs.«132594_g55353538511427_cont_9to1c4b_890_15_alg».proof.Proof.ReferenceConv
import Idealize.ShloMosaic.Adequacy
import Idealize.ShloMosaic.Init

noncomputable section

namespace Cert.Proof

open Idealize.ShloMosaic Idealize.SL.Sem Idealize.ShloMosaic.ValueIdx

/-- The word-level kernel terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is six host operations in a row: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments, both programs end with the graph convolution of those arguments
    in their result arrays: the kernel's by the sweep over its row panels, the reference's by reading its two
    contractions at an index. -/
theorem algebraic : Cert.algebraic_KernelIdeal_ReferenceIdeal := by
  intro m ρ m' ρ' _ hagree
  refine ⟨fun c => Cert.GraphConv.conv
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (fun f => m ((c.tc : Thread Cert.KernelIdeal.nD Cert.KernelIdeal.τ).loc Cert.KernelIdeal.main_arg3) (ix1 f)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq_conv,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
